-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S65536x1024 : Shape := ⟨2, ![65536, 1024]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩

abbrev nBuf : Space → Nat
  | .hbm => 21
  | .vmem => 4
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1024_S1x1024_0_0 : ∀ a, (![0, 0] : Fin 2 → Nat) a + S1x1024.size a ≤ S1x1024.size a
  h_S1x1024 : 0 < S1x1024.numel
  inb_S2048x1024_S2048x1024_0_0 : ∀ a, (![0, 0] : Fin 2 → Nat) a + S2048x1024.size a ≤ S2048x1024.size a
  h_S2048x1024 : 0 < S2048x1024.numel
  shapeCasts_S1x1024_S1x1024 : S1x1024.ShapeCasts S1x1024
  reduces_S2048x1024_S1024 : S2048x1024.Reduces [0] S1024
  shapeCasts_S1024_S1x1024 : S1024.ShapeCasts S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1024.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S1024_S_d0 : S1024.ReducesTo [0] S_

variable [Facts₀]

class Facts : Prop extends Facts₀ where

variable [Facts]
-- ==== Proof.Pieces.lean ====
/-
  What one step of the accumulation leaves behind, as values.

  At the first block of rows the two accumulators (one row of 1024 running sums, one row of 1024 running sums of
  squares) are first overwritten with zeros and then updated; at every later block they are updated from what the
  block before left.  The update of the sums is "old + column sums of the block", that of the squares
  "old + column sums of the block's squares"; here the buffers' final contents are identified with those two
  expressions of the block and the old contents (the zero row, at the first block).
-/
import proofs.«125233_j82325933130209_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]

/-- The offset (0, 0), at which every access of this kernel starts, is the zero offset. -/
theorem hz : (![0, 0] : Fin 2 → Nat) = fun _ => 0 := funext fun a => by fin_cases a <;> rfl

/-- At a later block the sums' accumulator ends at its old contents s plus the block's column sums. -/
theorem sums_B (c : Dev nD) (i : grid0.Coords) (a1 : Memref sig .tc .vmem S2048x1024 .f32) (h1 : a1.IsWhole)
    (a2 : Memref sig .tc .vmem S1x1024 .f32) (h2 : a2.IsWhole) (a3 : Memref sig .tc .vmem S1x1024 .f32) (h3 : a3.IsWhole)
    (hc : ¬cond0_0 i) (x : Vec F S2048x1024 .f32) (s q : Vec F S1x1024 .f32) :
    out0_B_1 c i a1 h1 a2 h2 a3 h3 hc x s q = k0_pay3 x s := by
  unfold out0_B_1
  rw [View.read_writes_eq_canon _ _ _ (cover0_B_1 c i a1 h1 a2 h2 a3 h3 hc x s q)]
  unfold kernelRun0_B
  dsimp only
  sl_unfold_words
  rw [View.canon_unit_zero hz]
  simp only [View.readAt_eq_ld, h1.read_unread, h2.read_unread, View.ld_unit_zero (S := S2048x1024) hz,
    View.ld_unit_zero (S := S1x1024) hz]

/-- At a later block the squares' accumulator ends at its old contents q plus the column sums of the block's squares. -/
theorem sqs_B (c : Dev nD) (i : grid0.Coords) (a1 : Memref sig .tc .vmem S2048x1024 .f32) (h1 : a1.IsWhole)
    (a2 : Memref sig .tc .vmem S1x1024 .f32) (h2 : a2.IsWhole) (a3 : Memref sig .tc .vmem S1x1024 .f32) (h3 : a3.IsWhole)
    (hc : ¬cond0_0 i) (x : Vec F S2048x1024 .f32) (s q : Vec F S1x1024 .f32) :
    out0_B_2 c i a1 h1 a2 h2 a3 h3 hc x s q = k0_pay4 x q := by
  unfold out0_B_2
  rw [View.read_writes_eq_canon _ _ _ (cover0_B_2 c i a1 h1 a2 h2 a3 h3 hc x s q)]
  unfold kernelRun0_B
  dsimp only
  sl_unfold_words
  rw [View.canon_unit_zero hz]
  simp only [View.readAt_eq_ld, h1.read_unread, h3.read_unread, View.ld_unit_zero (S := S2048x1024) hz,
    View.ld_unit_zero (S := S1x1024) hz]

/-- At the first block the sums' accumulator ends at the zero row plus the block's column sums. -/
theorem sums_A (c : Dev nD) (i : grid0.Coords) (a1 : Memref sig .tc .vmem S2048x1024 .f32) (h1 : a1.IsWhole)
    (a2 : Memref sig .tc .vmem S1x1024 .f32) (h2 : a2.IsWhole) (a3 : Memref sig .tc .vmem S1x1024 .f32) (h3 : a3.IsWhole)
    (hc : cond0_0 i) (x : Vec F S2048x1024 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x1024) hz, View.readCov_unit_zero (S := S1x1024) _ hz]
  simp only [View.readAt_eq_ld, h1.read_unread, View.ld_unit_zero (S := S2048x1024) hz,
    View.ld_unit_zero (S := S1x1024) hz]

/-- At the first block the squares' accumulator ends at the zero row plus the column sums of the block's squares. -/
theorem sqs_A (c : Dev nD) (i : grid0.Coords) (a1 : Memref sig .tc .vmem S2048x1024 .f32) (h1 : a1.IsWhole)
    (a2 : Memref sig .tc .vmem S1x1024 .f32) (h2 : a2.IsWhole) (a3 : Memref sig .tc .vmem S1x1024 .f32) (h3 : a3.IsWhole)
    (hc : cond0_0 i) (x : Vec F S2048x1024 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x1024) hz, View.readCov_unit_zero (S := S1x1024) _ hz]
  simp only [View.readAt_eq_ld, h1.read_unread, View.ld_unit_zero (S := S2048x1024) hz,
    View.ld_unit_zero (S := S1x1024) hz]

end Cert.KernelIdeal.Accum

end
-- ==== Proof.ColumnSums.lean ====
/-
  One step of the accumulation read at a column, on the extended reals: the sum along the rows of a 2048 × 1024
  block, at column c, is ∑ r, x (r, c); so the sums' accumulator gains ∑ r, x (r, c) at column c, the squares'
  accumulator gains ∑ r, x (r, c) * x (r, c), and the row stored at the first block is zero everywhere.
-/
import proofs.«125233_j82325933130209_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.ColumnSums

open Cert.KernelIdeal Cert.KernelIdeal.Gen

/-- Putting row r back into the reduced index c of a reduction along the rows gives (r, c). -/
theorem lift_rows (c : Fin 1024) (r : Fin (S2048x1024.size 0)) :
    reduces_S2048x1024_S1024.lift (ix1 c) r = ix2 (⟨r.val, r.isLt⟩ : Fin 2048) c := by
  funext a; apply Fin.ext
  fin_cases a <;> rfl

/-- A vector of 1024 entries cast to one row reads, at (0, c), entry c. -/
theorem row_apply {α : Type} (v : S1024.Idx → α) (c : Fin 1024) :
    shapeCast S1x1024 v shapeCasts_S1024_S1x1024 (ix2 (0 : Fin 1) c) = v (ix1 c) :=
  shapeCast_apply v shapeCasts_S1024_S1x1024 _ _ (by
    rw [Shape.rowMajor_val_two, Shape.rowMajor_val_one]
    show c.val = 0 * 1024 + c.val
    omega)

/-- A block's column c summed over the block's 2048 rows: the lane-wise reduction along the rows, read at c. -/
theorem blockSum_apply (x : Vec Ideal S2048x1024 .f32) (c : Fin 1024) :
    multiReduction (F := Ideal) .add [0] S1024 x 0x00000000#32 reduces_S2048x1024_S1024 (.inl rfl) rfl (ix1 c)
      = ∑ r : Fin 2048, x (ix2 r c) := by
  refine (Ideal.multiReduction_add_single x 0x00000000#32 reduces_S2048x1024_S1024 (.inl rfl) rfl (ix1 c)).trans ?_
  exact Finset.sum_congr rfl fun r _ => congrArg x (lift_rows c r)

/-- The running column sum after one more block: at column c, what was there plus the block's column c summed
    over its 2048 rows. -/
theorem sums_step_apply (x : Vec Ideal S2048x1024 .f32) (s : Vec Ideal S1x1024 .f32) (c : Fin 1024) :
    k0_pay3 (F := Ideal) x s (ix2 (0 : Fin 1) c) = s (ix2 (0 : Fin 1) c) + ∑ r : Fin 2048, x (ix2 r c) := by
  unfold k0_pay3
  show shapeCast S1x1024 s shapeCasts_S1x1024_S1x1024 (ix2 (0 : Fin 1) c)
      + shapeCast S1x1024 (multiReduction (F := Ideal) .add [0] S1024 x 0x00000000#32 reduces_S2048x1024_S1024 (.inl rfl) rfl)
          shapeCasts_S1024_S1x1024 (ix2 (0 : Fin 1) c) = _
  rw [shapeCast_self, row_apply]
  exact congrArg (_ + ·) (blockSum_apply x c)

/-- The running column sum of squares after one more block. -/
theorem sqs_step_apply (x : Vec Ideal S2048x1024 .f32) (q : Vec Ideal S1x1024 .f32) (c : Fin 1024) :
    k0_pay4 (F := Ideal) x q (ix2 (0 : Fin 1) c)
      = q (ix2 (0 : Fin 1) c) + ∑ r : Fin 2048, x (ix2 r c) * x (ix2 r c) := by
  unfold k0_pay4
  show shapeCast S1x1024 q shapeCasts_S1x1024_S1x1024 (ix2 (0 : Fin 1) c)
      + shapeCast S1x1024 (multiReduction (F := Ideal) .add [0] S1024 (mulf x x) 0x00000000#32 reduces_S2048x1024_S1024 (.inl rfl) rfl)
          shapeCasts_S1024_S1x1024 (ix2 (0 : Fin 1) c) = _
  rw [shapeCast_self, row_apply]
  exact congrArg (_ + ·) ((blockSum_apply (mulf (F := Ideal) x x) c).trans rfl)

/-- The reset block is zero at every entry. -/
theorem reset1_apply (j : S1x1024.Idx) : k0_pay1 (F := Ideal) j = 0 := by
  show Ideal.ofBits .f32 0x00000000#32 = 0
  exact Ideal.ofBits_zero_f32

/-- So is the second. -/
theorem reset2_apply (j : S1x1024.Idx) : k0_pay2 (F := Ideal) j = 0 := by
  show Ideal.ofBits .f32 0x00000000#32 = 0
  exact Ideal.ofBits_zero_f32

end Cert.KernelIdeal.ColumnSums

end
-- ==== Proof.Spec.lean ====
/-
  The mathematics of the variance loss, with no program in sight.

  For a matrix x of 65536 rows and 1024 columns, column c has the sum S c = ∑ R, x R c and the sum of squares
  Q c = ∑ R, x R c * x R c.  One program takes the unbiased variance of the column as
  (Q c - S c * S c / 65536) / (65536 - 1), the other as (∑ R, (x R c - S c / 65536)²) / 65535; the loss is the sum
  over the columns of the absolute value of the variance minus one.  Over the reals the two variances are one
  number; on the extended reals they are equal when every entry of the column is a real number, because then
  every term is real and the products distribute over the sums.

  The rows are also read in 32 consecutive blocks of 2048: a sum over all rows is the sum over the blocks of the
  sums within a block, in any commutative monoid, the extended reals included.
-/
import Idealize.ShloMosaic.PureOps.Ideal.Laws
import Idealize.ShloMosaic.Lib.ValueIdx
import Mathlib.Algebra.BigOperators.Fin
import Mathlib.Algebra.BigOperators.Ring.Finset
import Mathlib.Tactic.Ring
import Mathlib.Tactic.NormNum
import Mathlib.Tactic.Linarith

noncomputable section

open scoped BigOperators

namespace VarianceLoss

open Idealize.ShloMosaic

/-! ## The three float literals, as the reals they denote -/

/-- The pattern of 65536.0 denotes the real 65536 (the number of rows). -/
theorem lit_rows : Ideal.ofBits .f32 0x47800000#32 = ((65536 : ℝ) : EReal) := by
  simp [Ideal.ofBits, Ideal.ieee, -EReal.coe_mul]; norm_num

/-- The pattern of 65535.0 denotes the real 65535 (the rows less one). -/
theorem lit_rows_pred : Ideal.ofBits .f32 0x477FFF00#32 = ((65535 : ℝ) : EReal) := by
  simp [Ideal.ofBits, Ideal.ieee, -EReal.coe_mul]; norm_num

/-- The pattern of 1.0 denotes the real 1. -/
theorem lit_one : Ideal.ofBits .f32 0x3F800000#32 = ((1 : ℝ) : EReal) := by
  simp [Ideal.ofBits, Ideal.ieee, -EReal.coe_mul]; norm_num

/-! ## Rows in blocks -/

/-- Row r of block t, among all 65536 rows: row 2048 t + r. -/
def blockRow (t : Fin 32) (r : Fin 2048) : Fin 65536 :=
  ⟨2048 * t.val + r.val, by have := t.isLt; have := r.isLt; omega⟩

/-- A sum over all the rows is the sum, over the 32 blocks, of the sums over each block's 2048 rows. -/
theorem sum_rows_blocks {M : Type*} [AddCommMonoid M] (f : Fin 65536 → M) :
    ∑ R, f R = ∑ t : Fin 32, ∑ r : Fin 2048, f (blockRow t r) := by
  rw [← Fintype.sum_prod_type']
  refine (Fintype.sum_equiv (finProdFinEquiv (m := 32) (n := 2048)) _ _ fun p => ?_).symm
  exact congrArg f (Fin.ext (by show 2048 * p.1.val + p.2.val = p.2.val + 2048 * p.1.val; omega))

/-- The same row, with the block given as a natural number (read modulo 32, so that it is defined for every number). -/
def blockRowN (t : ℕ) (r : Fin 2048) : Fin 65536 := blockRow ⟨t % 32, Nat.mod_lt _ (by norm_num)⟩ r

/-- A sum over all the rows, block after block, with the blocks counted 0, 1, …, 31. -/
theorem sum_rows_range {M : Type*} [AddCommMonoid M] (f : Fin 65536 → M) :
    ∑ R, f R = ∑ t ∈ Finset.range 32, ∑ r : Fin 2048, f (blockRowN t r) := by
  rw [sum_rows_blocks, Finset.sum_range]
  refine Finset.sum_congr rfl fun t _ => Finset.sum_congr rfl fun r _ => ?_
  exact congrArg (fun t' => f (blockRow t' r)) (Fin.ext (Nat.mod_eq_of_lt t.isLt).symm)

/-! ## Sums of reals inside the extended reals -/

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The variance identity -/

/-- Over the reals: the squared deviations from the mean sum to the sum of squares less the squared sum over the
    number of rows. -/
theorem sum_sq_centered (x : Fin 65536 → ℝ) :
    ∑ R, (x R - (∑ R', x R') / 65536) * (x R - (∑ R', x R') / 65536)
      = (∑ R, x R * x R) - ((∑ R, x R) * (∑ R, x R)) / 65536 := by
  set S := ∑ R, x R with hS
  have h1 : ∀ R, (x R - S / 65536) * (x R - S / 65536)
      = x R * x R - (2 * (S / 65536)) * x R + (S / 65536) * (S / 65536) := fun R => by ring
  simp only [h1]
  rw [Finset.sum_add_distrib, Finset.sum_sub_distrib, ← Finset.mul_sum, Finset.sum_const, Finset.card_univ,
    Fintype.card_fin, ← hS]
  simp only [nsmul_eq_mul]
  push_cast
  ring

/-! ## One column -/

/-- The variance of a column less one, from the column's sum S and its sum of squares Q, as the accumulating
    program computes it: (Q - S * S / 65536) / (65536 - 1) - 1. -/
def devOfSums (S Q : EReal) : EReal :=
  Ideal.div (Q - Ideal.div (S * S) (Ideal.ofBits .f32 0x47800000#32))
      (Ideal.ofBits .f32 0x47800000#32 - Ideal.ofBits .f32 0x3F800000#32)
    - Ideal.ofBits .f32 0x3F800000#32

/-- The mean of a column as the centring program computes it: (0 + ∑ R, X R) / 65536. -/
def colMean (X : Fin 65536 → EReal) : EReal :=
  Ideal.div (Ideal.ofBits .f32 0x00000000#32 + ∑ R, X R) (Ideal.ofBits .f32 0x47800000#32)

/-- The variance of a column less one, as the centring program computes it:
    (0 + ∑ R, (X R - mean) * (X R - mean)) / 65535 - 1. -/
def devOfColumn (X : Fin 65536 → EReal) : EReal :=
  Ideal.div (Ideal.ofBits .f32 0x00000000#32 + ∑ R, (X R - colMean X) * (X R - colMean X))
      (Ideal.ofBits .f32 0x477FFF00#32)
    - Ideal.ofBits .f32 0x3F800000#32

/-- On a column of real numbers the two deviations are one extended real: every term is real, so the squared
    deviations expand, and 65536 - 1 = 65535. -/
theorem dev_eq (x : Fin 65536 → ℝ) :
    devOfColumn (fun R => ((x R : ℝ) : EReal))
      = devOfSums (∑ R, ((x R : ℝ) : EReal)) (∑ R, ((x R : ℝ) : EReal) * ((x R : ℝ) : EReal)) := by
  have hmean : colMean (fun R => ((x R : ℝ) : EReal)) = (((∑ R, x R) / 65536 : ℝ) : EReal) := by
    unfold colMean
    rw [Ideal.ofBits_zero_f32, zero_add, lit_rows, coe_sum, Ideal.div_coe (by norm_num), ← EReal.coe_mul]
    congr 1; ring
  have hsq : ∀ R, ((x R : ℝ) : EReal) * ((x R : ℝ) : EReal) = ((x R * x R : ℝ) : EReal) :=
    fun R => (EReal.coe_mul _ _).symm
  have hc : ∀ R, (((x R : ℝ) : EReal) - (((∑ R, x R) / 65536 : ℝ) : EReal))
        * (((x R : ℝ) : EReal) - (((∑ R, x R) / 65536 : ℝ) : EReal))
      = (((x R - (∑ R', x R') / 65536) * (x R - (∑ R', x R') / 65536) : ℝ) : EReal) := fun R => by
    rw [← EReal.coe_sub, ← EReal.coe_mul]
  have hS : ∑ R, ((x R : ℝ) : EReal) = ((∑ R, x R : ℝ) : EReal) := coe_sum _ _
  have hQ : ∑ R, ((x R : ℝ) : EReal) * ((x R : ℝ) : EReal) = ((∑ R, x R * x R : ℝ) : EReal) := by
    simp only [hsq]; exact coe_sum _ _
  have hV : ∑ R, (((x R : ℝ) : EReal) - (((∑ R, x R) / 65536 : ℝ) : EReal))
        * (((x R : ℝ) : EReal) - (((∑ R, x R) / 65536 : ℝ) : EReal))
      = (((∑ R, x R * x R) - ((∑ R, x R) * (∑ R, x R)) * (1 / 65536) : ℝ) : EReal) := by
    simp only [hc]; rw [coe_sum, sum_sq_centered]
    exact congrArg (fun r : ℝ => (r : EReal)) (by ring)
  have h1 : ((65536 : ℝ) : EReal) - ((1 : ℝ) : EReal) = ((65535 : ℝ) : EReal) := by
    rw [← EReal.coe_sub]; exact congrArg (fun r : ℝ => (r : EReal)) (by norm_num)
  unfold devOfColumn devOfSums
  rw [hmean, hV, hS, hQ, Ideal.ofBits_zero_f32, zero_add, lit_rows, lit_rows_pred, lit_one, h1, ← EReal.coe_mul,
    Ideal.div_coe (by norm_num : (65536 : ℝ) ≠ 0) (((∑ R, x R) * (∑ R, x R) : ℝ) : EReal), ← EReal.coe_mul,
    ← EReal.coe_sub]

/-! ## The loss -/

/-- The absolute value as the programs take it on the extended reals. -/
def absE (d : EReal) : EReal := max d (-d)

/-- The loss from the columns' sums and sums of squares: 0 + ∑ over the columns of |deviation|. -/
def lossOfSums (S Q : (⟨1, ![1024]⟩ : Shape).Idx → EReal) : EReal :=
  Ideal.ofBits .f32 0x00000000#32 + ∑ j : (⟨1, ![1024]⟩ : Shape).Idx, absE (devOfSums (S j) (Q j))

/-- The loss from the matrix itself, each column centred on its mean. -/
def lossOfMatrix (X : (⟨2, ![65536, 1024]⟩ : Shape).Idx → EReal) : EReal :=
  Ideal.ofBits .f32 0x00000000#32
    + ∑ j : (⟨1, ![1024]⟩ : Shape).Idx, absE (devOfColumn fun R => X (ValueIdx.ix2 (n0 := 65536) (n1 := 1024) R (j 0)))

/-- When every entry of the matrix is a real number, the two losses agree, column by column. -/
theorem loss_eq (X : (⟨2, ![65536, 1024]⟩ : Shape).Idx → EReal) (hX : ∀ i, ∃ r : ℝ, X i = (r : EReal)) :
    lossOfMatrix X
      = lossOfSums (fun j => ∑ R : Fin 65536, X (ValueIdx.ix2 (n0 := 65536) (n1 := 1024) R (j 0)))
          (fun j => ∑ R : Fin 65536, X (ValueIdx.ix2 (n0 := 65536) (n1 := 1024) R (j 0)) * X (ValueIdx.ix2 (n0 := 65536) (n1 := 1024) R (j 0))) := by
  choose x hx using hX
  unfold lossOfMatrix lossOfSums
  refine congrArg (_ + ·) (Finset.sum_congr rfl fun j _ => congrArg absE ?_)
  simp only [hx]
  exact dev_eq fun R => x (ValueIdx.ix2 (n0 := 65536) (n1 := 1024) R (j 0))

end VarianceLoss

end
-- ==== Proof.Accumulate.lean ====
/-
  The accumulation over the grid.  Block t of the matrix holds rows 2048 t, …, 2048 t + 2047, so after the point
  that reads block n the two accumulators hold, at column c, the sum and the sum of squares of column c over the
  rows of blocks 0, …, n.  Induction on n: the first point starts from zero, each later point adds its block.
-/
import proofs.«125233_j82325933130209_1_alg».proof.Proof.Pieces
import proofs.«125233_j82325933130209_1_alg».proof.Proof.ColumnSums
import proofs.«125233_j82325933130209_1_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.ColumnSums VarianceLoss

variable (m : (ℓ : Loc nD τ sig) → Buf (Elt Ideal) ℓ) (ρ : Dev nD → PrngReg)

/-- The matrix as the kernel's region finds it. -/
abbrev xarr (c : Dev nD) : Vec Ideal S65536x1024 .f32 := V m c main_arg0

/-- Row r, column col of the block the window fetches at point t is row 2048 t + r of the matrix. -/
theorem block_apply (c : Dev nD) (t : Fin cfg0.N) (r : Fin 2048) (col : Fin 1024) :
    (iblk m c 0 t : Vec Ideal S2048x1024 .f32) (ix2 r col) = xarr m c (ix2 (blockRowN t.val r) col) := by
  have hN : t.val < 32 := lt_of_lt_of_eq t.isLt (show cfg0.N = 32 from N_0)
  have hi : win0_0.index t 0 = t.val ∧ win0_0.index t 1 = 0 :=
    (by decide +kernel : ∀ t : Fin grid0.N, win0_0.index t 0 = t.val ∧ win0_0.index t 1 = 0) t
  unfold iblk
  rw [View.read_apply]
  refine congrArg (V m c main_arg0) (funext fun a => Fin.ext ?_)
  match a with
  | ⟨0, _⟩ =>
    show win0_0.index t 0 * 2048 + 1 * r.val = 2048 * (t.val % 32) + r.val
    rw [hi.1, Nat.mod_eq_of_lt hN]; omega
  | ⟨1, _⟩ =>
    show win0_0.index t 1 * 1024 + 1 * col.val = col.val
    rw [hi.2]; omega

/-- Column col summed over the rows of blocks 0, …, n. -/
def colSums (X : Vec Ideal S65536x1024 .f32) (n : ℕ) (col : Fin 1024) : EReal :=
  ∑ t ∈ Finset.range (n + 1), ∑ r : Fin 2048, X (ix2 (blockRowN t r) col)

/-- The squares of column col summed over the rows of blocks 0, …, n. -/
def colSqs (X : Vec Ideal S65536x1024 .f32) (n : ℕ) (col : Fin 1024) : EReal :=
  ∑ t ∈ Finset.range (n + 1), ∑ r : Fin 2048, X (ix2 (blockRowN t r) col) * X (ix2 (blockRowN t r) col)

/-- After point n the two accumulators hold, at column col, the column's sum and its sum of squares over the rows
    of blocks 0, …, n: point 0 stores zeros and adds block 0, every later point adds its block to what the point
    before left.  By induction on the point. -/
theorem running (c : Dev nD) : ∀ (n : ℕ) (h : n < cfg0.N),
    (∀ col, (outsAt0 m c n h).1 (ix2 (0 : Fin 1) col) = colSums (xarr m c) n col)
      ∧ (∀ col, (outsAt0 m c n h).2 (ix2 (0 : Fin 1) col) = colSqs (xarr m c) n col)
  | 0, h => by
    rw [outsAt0_A m c ⟨0, h⟩ rfl]
    dsimp only
    refine ⟨fun col => ?_, fun col => ?_⟩
    · rw [sums_A, sums_step_apply, reset1_apply, zero_add]
      unfold colSums
      rw [Finset.sum_range_one]
      exact Finset.sum_congr rfl fun r _ => block_apply m c ⟨0, h⟩ r col
    · rw [sqs_A, sqs_step_apply, reset2_apply, zero_add]
      unfold colSqs
      rw [Finset.sum_range_one]
      exact Finset.sum_congr rfl fun r _ => by rw [block_apply m c ⟨0, h⟩ r col]
  | n + 1, h => by
    have hN : cfg0.N = 32 := N_0
    have hB : ¬(⟨n + 1, h⟩ : Fin cfg0.N).val % 32 = 0 := by dsimp only; omega
    obtain ⟨ih1, ih2⟩ := running c n (Nat.lt_of_succ_lt h)
    rw [outsAt0_B m c ⟨n + 1, h⟩ hB]
    dsimp only
    refine ⟨fun col => ?_, fun col => ?_⟩
    · rw [sums_B, sums_step_apply]
      unfold colSums
      rw [Finset.sum_range_succ _ (n + 1)]
      exact congrArg₂ (· + ·) (ih1 col) (Finset.sum_congr rfl fun r _ => block_apply m c ⟨n + 1, h⟩ r col)
    · rw [sqs_B, sqs_step_apply]
      unfold colSqs
      rw [Finset.sum_range_succ _ (n + 1)]
      exact congrArg₂ (· + ·) (ih2 col) (Finset.sum_congr rfl fun r _ => by rw [block_apply m c ⟨n + 1, h⟩ r col])

end Cert.KernelIdeal.Accum

end
-- ==== Proof.Outputs.lean ====
/-
  From the accumulators to the program's result.  Each accumulator is written back to its result array once,
  after the last of the 32 points, and its single block is the whole 1 × 1024 array; so the two result arrays
  end holding the accumulators' final contents.  The lines that follow compute, per column,
  (Q − S·S/65536)/(65536 − 1) − 1, take absolute values and sum over the columns.
-/
import proofs.«125233_j82325933130209_1_alg».proof.Proof.Accumulate

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.ColumnSums VarianceLoss

variable (m : (ℓ : Loc nD τ sig) → Buf (Elt Ideal) ℓ) (ρ : Dev nD → PrngReg)

/-- The grid has 32 points, so 31 is one of them. -/
theorem last_lt : 31 < cfg0.N := lt_of_lt_of_eq (by decide : 31 < 32) (show cfg0.N = 32 from N_0).symm

/-- The last grid point, the only one after which the two results are written back. -/
abbrev tLast : Fin cfg0.N := ⟨31, last_lt⟩

/-- What the two result arrays end holding: the accumulators after the last point. -/
abbrev sumsOut (c : Dev nD) : Buf (Elt Ideal) ((c : Thread nD τ).loc main_v0_0) := (outsAt0 m c 31 last_lt).1
abbrev sqsOut (c : Dev nD) : Buf (Elt Ideal) ((c : Thread nD τ).loc main_v0_1) := (outsAt0 m c 31 last_lt).2

/-- What the one write-back of the first result writes is the sums' accumulator after the last point, read through
    the block (whose index is (0, 0), so block coordinates are array coordinates). -/
theorem flushed_sums (c : Dev nD) (t : Fin cfg0.N) (hf : (cfg0.win 1).flush t = true) :
    (dats m 0 c).flushed 1 t = ((cfg0.win 1).blk t).view.read (Elt Ideal) (sumsOut m c) := by
  have hN : cfg0.N = 32 := N_0
  have h31 : t.val = 31 := by have := (flush0_1 t).mp hf; have := t.isLt; omega
  obtain rfl : t = tLast := Fin.ext h31
  show (cfg0.win 1).cut (grid0.coords tLast) ((dats m 0 c).after 1 tLast) = _
  rw [after0_1]
  have hi : win0_1.index tLast 0 = 0 ∧ win0_1.index tLast 1 = 0 :=
    (by decide +kernel : ∀ t : Fin grid0.N, win0_1.index t 0 = 0 ∧ win0_1.index t 1 = 0) tLast
  funext j
  rw [View.read_apply]
  refine congrArg (outsAt0 m c 31 last_lt).1 (funext fun a => Fin.ext ?_)
  match a with
  | ⟨0, _⟩ => show (j 0).val = win0_1.index tLast 0 * 1 + 1 * (j 0).val; rw [hi.1]; omega
  | ⟨1, _⟩ => show (j 1).val = win0_1.index tLast 1 * 1024 + 1 * (j 1).val; rw [hi.2]; omega

/-- The one write-back of the first result covers its whole array. -/
theorem cover_sums (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨tLast, (flush0_1 tLast).mpr rfl, ?_⟩
  have hi : win0_1.index tLast 0 = 0 ∧ win0_1.index tLast 1 = 0 :=
    (by decide +kernel : ∀ t : Fin grid0.N, win0_1.index t 0 = 0 ∧ win0_1.index t 1 = 0) tLast
  show i ∈ ((View.whole main_v0_0).slice (win0_1.rect tLast)).set
  rw [View.set_slice_whole, Rect.mem_set_unit]
  intro a
  have h0 : (i 0 : Nat) < 1 := (i 0).isLt
  have h1 : (i 1 : Nat) < 1024 := (i 1).isLt
  match a with
  | ⟨0, _⟩ =>
    show win0_1.index tLast 0 * 1 ≤ (i 0 : Nat) ∧ (i 0 : Nat) < win0_1.index tLast 0 * 1 + win0_1.xsize (grid0.coords tLast) 0
    rw [hi.1, show win0_1.xsize (grid0.coords tLast) 0 = 1 from by decide +kernel]; omega
  | ⟨1, _⟩ =>
    show win0_1.index tLast 1 * 1024 ≤ (i 1 : Nat) ∧ (i 1 : Nat) < win0_1.index tLast 1 * 1024 + win0_1.xsize (grid0.coords tLast) 1
    rw [hi.2, show win0_1.xsize (grid0.coords tLast) 1 = 1024 from by decide +kernel]; omega

/-- The same for the second result and the squares' accumulator. -/
theorem flushed_sqs (c : Dev nD) (t : Fin cfg0.N) (hf : (cfg0.win 2).flush t = true) :
    (dats m 0 c).flushed 2 t = ((cfg0.win 2).blk t).view.read (Elt Ideal) (sqsOut m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2]
  have hi : win0_2.index tLast 0 = 0 ∧ win0_2.index tLast 1 = 0 :=
    (by decide +kernel : ∀ t : Fin grid0.N, win0_2.index t 0 = 0 ∧ win0_2.index t 1 = 0) tLast
  funext j
  rw [View.read_apply]
  refine congrArg (outsAt0 m c 31 last_lt).2 (funext fun a => Fin.ext ?_)
  match a with
  | ⟨0, _⟩ => show (j 0).val = win0_2.index tLast 0 * 1 + 1 * (j 0).val; rw [hi.1]; omega
  | ⟨1, _⟩ => show (j 1).val = win0_2.index tLast 1 * 1024 + 1 * (j 1).val; rw [hi.2]; omega

/-- The one write-back of the second result covers its whole array. -/
theorem cover_sqs (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨tLast, (flush0_2 tLast).mpr rfl, ?_⟩
  have hi : win0_2.index tLast 0 = 0 ∧ win0_2.index tLast 1 = 0 :=
    (by decide +kernel : ∀ t : Fin grid0.N, win0_2.index t 0 = 0 ∧ win0_2.index t 1 = 0) tLast
  show i ∈ ((View.whole main_v0_1).slice (win0_2.rect tLast)).set
  rw [View.set_slice_whole, Rect.mem_set_unit]
  intro a
  have h0 : (i 0 : Nat) < 1 := (i 0).isLt
  have h1 : (i 1 : Nat) < 1024 := (i 1).isLt
  match a with
  | ⟨0, _⟩ =>
    show win0_2.index tLast 0 * 1 ≤ (i 0 : Nat) ∧ (i 0 : Nat) < win0_2.index tLast 0 * 1 + win0_2.xsize (grid0.coords tLast) 0
    rw [hi.1, show win0_2.xsize (grid0.coords tLast) 0 = 1 from by decide +kernel]; omega
  | ⟨1, _⟩ =>
    show win0_2.index tLast 1 * 1024 ≤ (i 1 : Nat) ∧ (i 1 : Nat) < win0_2.index tLast 1 * 1024 + win0_2.xsize (grid0.coords tLast) 1
    rw [hi.2, show win0_2.xsize (grid0.coords tLast) 1 = 1024 from by decide +kernel]; omega

/-- So the first result array ends holding the running sums after the last point, -/
theorem final_sums (c : Dev nD) : (dats m 0 c).arrAt 1 cfg0.N = sumsOut m c :=
  (dats m 0 c).arrAt_eq_of_cover 1 (sumsOut m c) (flushed_sums m c) (cover_sums c)

/-- and the second the running sums of squares. -/
theorem final_sqs (c : Dev nD) : (dats m 0 c).arrAt 2 cfg0.N = sqsOut m c :=
  (dats m 0 c).arrAt_eq_of_cover 2 (sqsOut m c) (flushed_sqs m c) (cover_sqs c)

/-- The variance of each column less one, from the two result arrays, as the lines after the kernel compute it. -/
def devVec {F : FTy → Type} [FloatOps F] (s q : FVec F S1x1024 .f32) : FVec F S1024 .f32 :=
  subf
    (Host.divf
      (subf (shapeCast S1024 q shapeCasts_S1x1024_S1024)
        (Host.divf (mulf (shapeCast S1024 s shapeCasts_S1x1024_S1024) (shapeCast S1024 s shapeCasts_S1x1024_S1024))
          (broadcastInDim S1024 ![] bcast_S_S1024 (constant (F := F) S_ .f32 0x47800000#32))))
      (broadcastInDim S1024 ![] bcast_S_S1024
        (subf (constant (F := F) S_ .f32 0x47800000#32) (constant (F := F) S_ .f32 0x3F800000#32))))
    (broadcastInDim S1024 ![] bcast_S_S1024 (constant (F := F) S_ .f32 0x3F800000#32))

/-- The lines of the program after the kernel, as one function of the two result arrays: the absolute deviations
    summed over the columns. -/
def lossTail {F : FTy → Type} [FloatOps F] (s q : FVec F S1x1024 .f32) : FVec F S_ .f32 :=
  Host.reduceAdd (Host.absf (devVec s q)) (constant (F := F) S_ .f32 0x00000000#32) reducesTo_S1024_S_d0 h_S_

/-- After the kernel's region and the lines that follow it, the program's result is that function of the two
    accumulators' final contents. -/
theorem tail_eq (c : Dev nD) :
    Pipeline.afterTail₀ cfgs (dats m) 0 (V0 m) [hostOps1] c main_v13 = lossTail (F := Ideal) (sumsOut m c) (sqsOut m c) := by
  have e1 : Pipeline.withArrays (cfgs 0).spec c (V0 m c) (fun w => (dats m 0 c).arrAt w (cfgs 0).N) (Proc.tc.devRef main_v0_0)
      = sumsOut m c := (Pipeline.withArrays_arr spec0 launch0.win.arr_inj c _ _ 1).trans (final_sums m c)
  have e2 : Pipeline.withArrays (cfgs 0).spec c (V0 m c) (fun w => (dats m 0 c).arrAt w (cfgs 0).N) (Proc.tc.devRef main_v0_1)
      = sqsOut m c := (Pipeline.withArrays_arr spec0 launch0.win.arr_inj c _ _ 2).trans (final_sqs m c)
  unfold Pipeline.afterTail₀
  show StableHlo.after hostOps1 _ (Proc.devRef .tc main_v13) = _
  after_results
  rw [e1, e2]
  rfl

/-- The kernel program's run, read: its result at that function of the accumulators, its argument unchanged. -/
theorem run : θ_run defs (onTc (τ := τ) (main (F := Ideal))) ⟨m, fun _ => 0, ρ⟩ fun r => ∀ c : Dev nD,
      r.2.mem ((c : Thread nD τ).loc main_v13) = lossTail (F := Ideal) (sumsOut m c) (sqsOut m c)
      ∧ r.2.mem ((c : Thread nD τ).loc main_arg0) = m ((c : Thread nD τ).loc main_arg0) :=
  (θ_run defs _ _).mono
    (fun _ h c => ⟨((h c).2 main_v13 (by decide)).trans (tail_eq m c),
      ((h c).1 0).trans (((dats m 0 c).arrAt_in 0 rfl _).trans ((A_eq m c 0).trans (V_main_arg0 m c)))⟩)
    (run_main m ρ)

end Cert.KernelIdeal.Accum

end
-- ==== Proof.KernelLoss.lean ====
/-
  The accumulating program's result as a function of the matrix.  The lines after the kernel read the two 1 × 1024
  arrays column by column, so their result is the loss from the columns' sums S and sums of squares Q; and after
  the last point S and Q are the sums over all 32 blocks, that is over all 65536 rows.
-/
import proofs.«125233_j82325933130209_1_alg».proof.Proof.Outputs

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.ColumnSums VarianceLoss

variable (m : (ℓ : Loc nD τ sig) → Buf (Elt Ideal) ℓ) (ρ : Dev nD → PrngReg)

/-- One row of 1024 entries cast to a vector reads, at j, the row's entry (0, j 0). -/
theorem unrow_apply {α : Type} (v : S1x1024.Idx → α) (j : S1024.Idx) :
    shapeCast S1024 v shapeCasts_S1x1024_S1024 j = v (ix2 (n0 := 1) (n1 := 1024) 0 (j 0)) :=
  shapeCast_apply v shapeCasts_S1x1024_S1024 j _ (by
    rw [Shape.rowMajor_val_two, Shape.rowMajor_val_one]
    show 0 * 1024 + (j 0).val = (j 0).val
    omega)

/-- A scalar spread over the columns reads the scalar at every column. -/
theorem splat_apply {α : Type} (y : S_.Idx → α) (j : S1024.Idx) :
    broadcastInDim S1024 ![] bcast_S_S1024 y j = y ix0 :=
  broadcastInDim_apply _ bcast_S_S1024 y j ix0 (fun a => a.elim0)

/-- Column j's variance less one, from the two arrays' entries at that column. -/
theorem devVec_apply (s q : FVec Ideal S1x1024 .f32) (j : S1024.Idx) :
    devVec (F := Ideal) s q j
      = devOfSums (s (ix2 (n0 := 1) (n1 := 1024) 0 (j 0))) (q (ix2 (n0 := 1) (n1 := 1024) 0 (j 0))) := by
  unfold devVec devOfSums
  show Ideal.div
        (shapeCast S1024 q shapeCasts_S1x1024_S1024 j
          - Ideal.div (shapeCast S1024 s shapeCasts_S1x1024_S1024 j * shapeCast S1024 s shapeCasts_S1x1024_S1024 j)
              (broadcastInDim S1024 ![] bcast_S_S1024 (constant (F := Ideal) S_ .f32 0x47800000#32) j))
        (broadcastInDim S1024 ![] bcast_S_S1024
          (subf (constant (F := Ideal) S_ .f32 0x47800000#32) (constant (F := Ideal) S_ .f32 0x3F800000#32)) j)
      - broadcastInDim S1024 ![] bcast_S_S1024 (constant (F := Ideal) S_ .f32 0x3F800000#32) j = _
  rw [unrow_apply, unrow_apply, splat_apply, splat_apply, splat_apply]
  rfl

/-- The lines after the kernel compute, at the result's one index, the loss from the two arrays read as the
    columns' sums and sums of squares. -/
theorem lossTail_apply (s q : FVec Ideal S1x1024 .f32) (i : S_.Idx) :
    lossTail (F := Ideal) s q i
      = lossOfSums (fun j => s (ix2 (n0 := 1) (n1 := 1024) 0 (j 0))) (fun j => q (ix2 (n0 := 1) (n1 := 1024) 0 (j 0))) := by
  unfold lossTail
  simp only [Host.reduceAdd, Ideal.hostReduceAdd_def]
  rw [Ideal.hostReduceAdd_total reducesTo_S1024_S_d0 (fun b => b.elim0)]
  unfold lossOfSums
  refine congrArg₂ (· + ·) rfl (Finset.sum_congr rfl fun j _ => ?_)
  show absE (devVec (F := Ideal) s q j) = _
  rw [devVec_apply]

/-- The loss as the accumulating program computes it, as a function of the matrix. -/
def kernelLoss (X : Vec Ideal S65536x1024 .f32) : EReal :=
  lossOfSums (fun j => ∑ R : Fin 65536, X (ix2 (n0 := 65536) (n1 := 1024) R (j 0)))
    (fun j => ∑ R : Fin 65536, X (ix2 (n0 := 65536) (n1 := 1024) R (j 0)) * X (ix2 (n0 := 65536) (n1 := 1024) R (j 0)))

/-- The kernel program's result is that function of its argument: after the last point the accumulators hold the
    sums over all 32 blocks, which are the sums over all rows. -/
theorem result_eq (c : Dev nD) (i : S_.Idx) :
    lossTail (F := Ideal) (sumsOut m c) (sqsOut m c) i = kernelLoss (m ((c : Thread nD τ).loc main_arg0)) := by
  rw [lossTail_apply]
  unfold kernelLoss
  obtain ⟨h1, h2⟩ := running m c 31 last_lt
  refine congrArg₂ lossOfSums (funext fun j => ?_) (funext fun j => ?_)
  · refine (h1 (j 0)).trans ?_
    unfold colSums
    exact (sum_rows_range fun R => xarr m c (ix2 (n0 := 65536) (n1 := 1024) R (j 0))).symm
  · refine (h2 (j 0)).trans ?_
    unfold colSqs
    exact (sum_rows_range fun R => xarr m c (ix2 (n0 := 65536) (n1 := 1024) R (j 0))
      * xarr m c (ix2 (n0 := 65536) (n1 := 1024) R (j 0))).symm

end Cert.KernelIdeal.Accum

end
-- ==== Proof.Centred.lean ====
/-
  The centring program's result as a function of the matrix, read one operation at a time on the extended reals:
  the column sums, the means S/65536 broadcast back over the rows, the centred squares, their column sums over
  65535, minus one, absolute value, and the sum over the columns.  It is the loss of the matrix with every column
  centred on its mean.
-/
import proofs.«125233_j82325933130209_1_alg».proof.Proof.Gen.ReferenceIdeal.Read
import proofs.«125233_j82325933130209_1_alg».proof.Proof.Spec

noncomputable section

open scoped BigOperators
open Idealize.ShloMosaic Idealize.ShloMosaic.ValueIdx

namespace Cert.ReferenceIdeal.Centred

open Cert.ReferenceIdeal Cert.ReferenceIdeal.Read VarianceLoss

/-- The first reduction sums a column over all rows: at column c its k-th summand sits at (k, c). -/
theorem idx_sum (c : Fin 1024) (k : Fin 65536) : idx_main_v0 (ix1 c) k = ix2 k c :=
  funext fun a => by match a with | ⟨0, _⟩ => rfl | ⟨1, _⟩ => rfl

/-- So does the second, at any index j of the columns. -/
theorem idx_sq (j : S1024.Idx) (k : Fin 65536) : idx_main_v7 j k = ix2 (n0 := 65536) (n1 := 1024) k (j 0) :=
  funext fun a => by match a with | ⟨0, _⟩ => rfl | ⟨1, _⟩ => rfl

/-- The mean broadcast back over the rows reads, at (k, c), the mean of column c. -/
theorem idx_mean (c : Fin 1024) (k : Fin 65536) : idx_main_v3 (idx_main_v4 (ix2 k c)) = ix1 c :=
  funext fun a => by match a with | ⟨0, _⟩ => rfl

/-- The mean of column c, as the reference computes it. -/
theorem mean_eq (X : FVec Ideal S65536x1024 .f32) (c : Fin 1024) :
    val_main_v2 (F := Ideal) X (ix1 c) = colMean fun R => X (ix2 R c) := by
  rw [val_main_v2_apply, val_main_v0_apply, val_main_v1_apply]
  simp only [idx_sum]
  rfl

/-- The centred square at (k, c). -/
theorem centred_sq (X : FVec Ideal S65536x1024 .f32) (c : Fin 1024) (k : Fin 65536) :
    val_main_v6 (F := Ideal) X (ix2 k c)
      = (X (ix2 k c) - colMean fun R => X (ix2 R c)) * (X (ix2 k c) - colMean fun R => X (ix2 R c)) := by
  rw [val_main_v6_apply, val_main_v5_apply, val_main_v4_apply, val_main_v3_apply, idx_mean, mean_eq]
  rfl

/-- The deviation of column (j 0), as the reference computes it. -/
theorem dev_eq_col (X : FVec Ideal S65536x1024 .f32) (j : S1024.Idx) :
    val_main_v11 (F := Ideal) X j = devOfColumn fun R => X (ix2 (n0 := 65536) (n1 := 1024) R (j 0)) := by
  rw [val_main_v11_apply, val_main_v9_apply, val_main_v7_apply, val_main_v8_apply, val_main_v10_apply]
  simp only [idx_sq]
  rw [Finset.sum_congr rfl fun k _ => centred_sq X (j 0) k]
  unfold devOfColumn
  rw [val_main_cst_1_apply, val_main_cst_2_apply, val_main_cst_3_apply]
  simp only [Ideal.subf_def, Ideal.hostDivf_def, Ideal.ofBits_def]

/-- The reference's result, at its one index, is the loss of the matrix with every column centred on its mean. -/
theorem loss_eq_ref (X : FVec Ideal S65536x1024 .f32) (i : S_.Idx) :
    val_main_v13 (F := Ideal) X i = lossOfMatrix X := by
  rw [val_main_v13_apply]
  unfold lossOfMatrix
  refine congrArg₂ (· + ·) rfl (Finset.sum_congr rfl fun j _ => ?_)
  rw [val_main_v12_apply, dev_eq_col]
  rfl

end Cert.ReferenceIdeal.Centred

end
-- ==== Proof.Finite.lean ====
/-
  The precondition read on the extended reals: "every |x| is below +infinity" says that no entry is +infinity or
  −infinity, so every entry is a real number.
-/
import proofs.«125233_j82325933130209_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Entries

open Idealize.ShloMosaic Cert.Pre_finite_inputs

/-- A scalar has one index. -/
instance : Subsingleton S_.Idx := ⟨fun a b => funext fun d => d.elim0⟩

/-- The pattern of +infinity denotes the top of the extended reals. -/
theorem lit_inf : Ideal.ofBits .f32 0x7F800000#32 = (⊤ : EReal) := by
  simp [Ideal.ofBits, Ideal.ieee]

/-- If the precondition holds of a matrix read on the extended reals, every entry is a real number: its absolute
    value is below +infinity, which excludes both infinities. -/
theorem real_of_pre (X : FVec Ideal S65536x1024 .f32)
    (h : Cert.Pre_finite_inputs.fn (F := Ideal) X = fun _ => 1#1) (i : S65536x1024.Idx) :
    ∃ r : ℝ, X i = (r : EReal) := by
  have h0 := congrFun h ValueIdx.ix0
  dsimp only [Cert.Pre_finite_inputs.fn] at h0
  have hi := Host.reduce_andi_all _ _ _ _ _ h0 i
  rw [ValueIdx.cmpf_apply, broadcastInDim_apply _ _ _ i ValueIdx.ix0 (fun a => a.elim0)] at hi
  change Ideal.cmp .olt (max (X i) (-(X i))) (Ideal.ofBits .f32 0x7F800000#32) = 1#1 at hi
  rw [lit_inf] at hi
  have hlt : max (X i) (-(X i)) < ⊤ := by
    unfold Ideal.cmp at hi
    by_contra hn
    simp [hn] at hi
  generalize X i = y at hlt ⊢
  induction y using EReal.rec with
  | bot => simp at hlt
  | coe r => exact ⟨r, rfl⟩
  | top => simp at hlt

end Cert.Pre_finite_inputs.Entries

end
-- ==== Proof.lean ====
/-
  The variance loss of a 65536 × 1024 matrix x: for each column c the unbiased variance over the 65536 rows, then the
  sum over the columns of |variance − 1|.

  One program streams the rows in 32 blocks of 2048 and keeps, per column, a running sum S and a running sum of
  squares Q (both reset to zero at the first block); afterwards it takes the variance as
  (Q − S·S/65536)/(65536 − 1).  The other first takes the column mean μ = S/65536 and then the variance as
  (∑ (x − μ)²)/65535.

  Read on the extended reals the two agree whenever every entry is a real number, which the precondition says:
    * a sum over all rows is the sum over the blocks of the sums within a block (associativity and commutativity
      of addition, which hold on the extended reals without any finiteness);
    * for real entries ∑ (x − S/n)² = Q − S·S/n with n = 65536 (expand the square and use ∑ 1 = n), and
      65536 − 1 = 65535;
    * the absolute value, the subtraction of one and the final sum over the columns are the same operations on
      both sides.
  The two programs' results are therefore one extended real.  The ideal reading changes no operation of the
  accumulating program, so there is nothing to state about its idealization.
-/
import proofs.«125233_j82325933130209_1_alg».proof.Defs
import proofs.«125233_j82325933130209_1_alg».proof.Proof.Gen.Kernel
import proofs.«125233_j82325933130209_1_alg».proof.Proof.Gen.Kernel.Skeleton
import proofs.«125233_j82325933130209_1_alg».proof.Proof.Gen.Kernel.Launch
import proofs.«125233_j82325933130209_1_alg».proof.Proof.Gen.Kernel.Points
import proofs.«125233_j82325933130209_1_alg».proof.Proof.Gen.Kernel.Frame
import proofs.«125233_j82325933130209_1_alg».proof.Proof.Gen.KernelIdeal
import proofs.«125233_j82325933130209_1_alg».proof.Proof.Gen.KernelIdeal.Skeleton
import proofs.«125233_j82325933130209_1_alg».proof.Proof.Gen.KernelIdeal.Launch
import proofs.«125233_j82325933130209_1_alg».proof.Proof.Gen.KernelIdeal.Points
import proofs.«125233_j82325933130209_1_alg».proof.Proof.Gen.KernelIdeal.Frame
import proofs.«125233_j82325933130209_1_alg».proof.Proof.Gen.ReferenceIdeal
import proofs.«125233_j82325933130209_1_alg».proof.Proof.Gen.ReferenceIdeal.Run
import proofs.«125233_j82325933130209_1_alg».proof.Proof.Gen.ReferenceIdeal.Read
import proofs.«125233_j82325933130209_1_alg».proof.Proof.Gen.Pre_finite_inputs
import proofs.«125233_j82325933130209_1_alg».proof.Proof.KernelLoss
import proofs.«125233_j82325933130209_1_alg».proof.Proof.Centred
import proofs.«125233_j82325933130209_1_alg».proof.Proof.Finite
import Idealize.ShloMosaic.Adequacy
import Idealize.ShloMosaic.Init

noncomputable section

namespace Cert.Proof

open Idealize.ShloMosaic Idealize.ShloMosaic.TcCoe Idealize.SL.Sem

/-- The accumulating program at the word level runs and leaves its argument alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The centring program is a straight line of array operations: it runs, and its argument is not written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the accumulating program is rewritten for the extended reals. -/
theorem preserves : Cert.preserves_Kernel_KernelIdeal := trivial

/-- Both programs, run on matrices that agree and whose entries are all real numbers, end with the same loss: the
    accumulating one with the loss from the columns' sums and sums of squares, the centring one with the loss from
    the centred columns, and these are equal column by column. -/
theorem algebraic : Cert.algebraic_KernelIdeal_ReferenceIdeal := by
  intro m ρ m' ρ' hpre hagree
  refine ⟨fun c _ => Cert.KernelIdeal.Accum.kernelLoss
      (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (funext fun i => Cert.KernelIdeal.Accum.result_eq m c i), (h c).2⟩)
      (Cert.KernelIdeal.Accum.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, hagree c]
    funext i
    rw [Cert.ReferenceIdeal.Centred.loss_eq_ref]
    exact VarianceLoss.loss_eq _ fun j => Cert.Pre_finite_inputs.Entries.real_of_pre _ (hpre c) j

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
